-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : IVec S16384 32) (main_arg3 : FVec F S128x128 .f32) (main_arg4 : FVec F S128x128 .f32) (main_arg5 : FVec F S64x128 .f32) (main_arg6 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S128x16384 : Shape := ⟨2, ![128, 16384]⟩

abbrev nBuf : Space → Nat
  | .hbm => 22
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384, .i32⟩
  | .hbm, ⟨3, _⟩ => ⟨S128x128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .bf16⟩
  | .hbm, ⟨20, _⟩ => ⟨S1x128, .f32⟩
  | .hbm, ⟨21, _⟩ => ⟨S16384x128, .f32⟩
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  shapeCasts_S128_S1x128 : S128.ShapeCasts S1x128
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  gather_S64x128_S16384x1_S16384x128_1_0_n_n_0_1_1128_wf : GatherDims.WF S64x128 S16384x1 S16384x128 [1] [0] [] [0] [] 1 ![1, 128]
  dot_S16384x128_S128x128_S16384x128_1_0_0_1_n_n_wf : DotDims.WF S16384x128 S128x128 S16384x128 [1] [0] [0] [1] [] []
  dot_S128x16384_S16384x128_S128x128_1_0_0_1_n_n_wf : DotDims.WF S128x16384 S16384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S16384x128.size a
  hwx0_2 : ∀ i : grid0.Coords, EltTy.bits .f32 = 32 ∨ (Rect.block (s := S16384x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S16384x128.size a
  hwx0_4 : ∀ i : grid0.Coords, EltTy.bits .f32 = 32 ∨ (Rect.block (s := S16384x128) S128x128.size (cc0_transform_4 i) (hinb0_4 i)).WholeWords (EltTy.packing .f32)

variable [Facts₀]

def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩
abbrev S16384x1 : Shape := ⟨2, ![16384, 1]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384, .i32⟩
  | .hbm, ⟨3, _⟩ => ⟨S128x128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S1x128, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  gather_S64x128_S16384x1_S16384x128_1_0_n_n_0_1_1128_wf : GatherDims.WF S64x128 S16384x1 S16384x128 [1] [0] [] [0] [] 1 ![1, 128]
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.AggSpec.lean ====
/- The aggregation both programs compute, as ONE function of four arrays. For a vertex p and an output feature q:
   row p of the adjacency contracted against column q of the lagged features, plus the direct term at (p, q), plus the
   bias at q. The sum over the 16384 neighbours is a finite sum of products on the extended reals; the two additions
   are taken in this order, (sum + direct) + bias. -/
import Idealize.ShloMosaic.PureOps.Ideal
import Idealize.ShloMosaic.Lib.ValueIdx

noncomputable section

open scoped BigOperators

namespace Cert.Agg

open Idealize.ShloMosaic Idealize.ShloMosaic.ValueIdx

/-- The entry at vertex `p`, feature `q`: `(∑ k, adj (p, k) * lag (k, q)) + ra (p, q) + bias q`. -/
def entry (adj : (⟨2, ![16384, 16384]⟩ : Shape).Idx → EReal) (lag ra : (⟨2, ![16384, 128]⟩ : Shape).Idx → EReal)
    (bias : Fin 128 → EReal) (p : Fin 16384) (q : Fin 128) : EReal :=
  (∑ k : Fin 16384, adj (ix2 p k) * lag (ix2 k q)) + ra (ix2 p q) + bias q

/-- The whole [16384, 128] array of those entries. -/
def agg (adj : (⟨2, ![16384, 16384]⟩ : Shape).Idx → EReal) (lag ra : (⟨2, ![16384, 128]⟩ : Shape).Idx → EReal)
    (bias : Fin 128 → EReal) : (⟨2, ![16384, 128]⟩ : Shape).Idx → EReal :=
  fun i => entry adj lag ra bias (i 0) (i 1)

/-- The array read at the index built from a vertex and a feature. -/
theorem agg_ix2 (adj : (⟨2, ![16384, 16384]⟩ : Shape).Idx → EReal) (lag ra : (⟨2, ![16384, 128]⟩ : Shape).Idx → EReal)
    (bias : Fin 128 → EReal) (p : Fin 16384) (q : Fin 128) :
    agg adj lag ra bias (ix2 p q) = entry adj lag ra bias p q := rfl

/-- The array read at any index whose coordinates are known as numbers. -/
theorem agg_apply (adj : (⟨2, ![16384, 16384]⟩ : Shape).Idx → EReal) (lag ra : (⟨2, ![16384, 128]⟩ : Shape).Idx → EReal)
    (bias : Fin 128 → EReal) (i : (⟨2, ![16384, 128]⟩ : Shape).Idx) (p : Fin 16384) (q : Fin 128)
    (hp : (i 0).val = p.val) (hq : (i 1).val = q.val) :
    agg adj lag ra bias i = entry adj lag ra bias p q := by
  have e : i = ix2 p q := funext fun a => Fin.ext (by
    match a with
    | ⟨0, _⟩ => exact hp
    | ⟨1, _⟩ => exact hq)
  rw [e, agg_ix2]

end Cert.Agg

end
-- ==== Proof.RefAgg.lean ====
/- The reference's result is the aggregation. Its last five operations, read at vertex `p` and feature `q`:
   the adjacency times the lagged features is the sum over the neighbours `k` of `adj (p, k) * lag (k, q)`; the direct
   term is added on the LEFT of it; the bias, laid out as one row and repeated down the vertices, is added last. The
   direct term and the lagged features are left as the reference's own earlier stages, unopened. The only difference
   from the aggregation's order is which side the direct term is added on, and addition of extended reals commutes. -/
import proofs.«103009_j38603166056521_1_alg».proof.Proof.Gen.ReferenceIdeal.Read
import proofs.«103009_j38603166056521_1_alg».proof.Proof.AggSpec

noncomputable section

open scoped BigOperators
open Idealize.ShloMosaic Idealize.ShloMosaic.ValueIdx

namespace Cert.ReferenceIdeal.RefValue

open Cert.ReferenceIdeal Cert.ReferenceIdeal.Read

/-- The adjacency's entry the product reads for neighbour `k`: row `p`, column `k`. -/
theorem adj_index (p : Fin 16384) (q : Fin 128) (k : Fin 16384) : lidx_main_v10 (ix2 p q) k = ix2 p k :=
  funext fun a => Fin.ext (by
    match a with
    | ⟨0, _⟩ => rfl
    | ⟨1, _⟩ => rfl)

/-- The lagged features' entry it reads: row `k`, column `q`. -/
theorem lag_index (p : Fin 16384) (q : Fin 128) (k : Fin 16384) : ridx_main_v10 (ix2 p q) k = ix2 k q :=
  funext fun a => Fin.ext (by
    match a with
    | ⟨0, _⟩ => rfl
    | ⟨1, _⟩ => rfl)

/-- The bias entry the two broadcasts read at `(p, q)`: the one at `q`. -/
theorem bias_index (p : Fin 16384) (q : Fin 128) : idx_main_v12 (idx_main_v13 (ix2 p q)) = ix1 q :=
  funext fun a => Fin.ext (by
    match a with
    | ⟨0, _⟩ => rfl)

/-- The reference's result array is the aggregation of the adjacency, its own lagged features, its own direct term and
    the bias. -/
theorem result_eq (x0 : FVec Ideal S16384x128 .f32) (x1 : FVec Ideal S16384x16384 .f32) (x2 : IVec S16384 32)
    (x3 x4 : FVec Ideal S128x128 .f32) (x5 : FVec Ideal S64x128 .f32) (x6 : FVec Ideal S128 .f32) :
    val_main_v14 (F := Ideal) x0 x1 x2 x3 x4 x5 x6
      = Cert.Agg.agg x1 (val_main_v9 (F := Ideal) x0 x2 x4 x5) (val_main_v8 (F := Ideal) x0 x2 x3 x5) (fun q => x6 (ix1 q)) := by
  funext i
  obtain ⟨p, q, rfl⟩ : ∃ (p : Fin 16384) (q : Fin 128), i = ix2 p q := ⟨i 0, i 1, eq_ix2 i⟩
  rw [val_main_v14_apply, val_main_v11_apply, val_main_v10_apply, val_main_v13_apply, val_main_v12_apply,
    Cert.Agg.agg_ix2]
  unfold Cert.Agg.entry
  simp only [adj_index, lag_index, bias_index, Ideal.addf_def]
  rw [add_comm (val_main_v8 (F := Ideal) x0 x2 x3 x5 (ix2 p q))]

end Cert.ReferenceIdeal.RefValue

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.Payload.lean ====
/- The kernel body's one stored value, read at an entry. At a grid point the body holds a 128-row slab of the
   adjacency, the whole lagged-feature matrix, the matching 128 rows of the direct term and the one-row bias; it
   stores, at row `p` and column `q` of its block, the slab's row `p` contracted with column `q` of the lagged
   features (a product into a zero accumulator, the narrowing of both operands being the identity on the extended
   reals), plus the direct term at `(p, q)`, plus the bias row's entry `q`. -/
import proofs.«103009_j38603166056521_1_alg».proof.Proof.Gen.KernelIdeal.Skeleton
import proofs.«103009_j38603166056521_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Hand

open Cert.KernelIdeal Cert.KernelIdeal.Gen

/-- The slab times the lagged features, into the zero accumulator, at `(p, q)`: the sum over the 16384 neighbours. -/
theorem slab_product (x0 : FVec Ideal S128x16384 .f32) (x1 : FVec Ideal S16384x128 .bf16) (p q : Fin 128) :
    (matmul dot_S128x16384_S16384x128_S128x128_1_0_0_1_n_n none (truncf .bf16 x0 bitsLt_bf16_f32) x1
        (constant S128x128 .f32 0x00000000#32) : FVec Ideal S128x128 .f32) (ix2 p q)
      = ∑ k : Fin 16384, x0 (ix2 p k) * x1 (ix2 k q) :=
  (Ideal.matmul_constant_zero_apply dot_S128x16384_S16384x128_S128x128_1_0_0_1_n_n none (truncf .bf16 x0 bitsLt_bf16_f32) x1 (ix2 p q)).trans
    (Cert.DotRead.sum_contr_plain dot_S128x16384_S16384x128_S128x128_1_0_0_1_n_n.wf (truncf .bf16 x0 bitsLt_bf16_f32) x1 p q)

/-- The stored value at row `p`, column `q` of the block. -/
theorem pay_apply (x0 : FVec Ideal S128x16384 .f32) (x1 : FVec Ideal S16384x128 .bf16) (x2 : FVec Ideal S128x128 .f32)
    (x3 : FVec Ideal S1x128 .f32) (p q : Fin 128) :
    k0_pay1 (F := Ideal) x0 x1 x2 x3 (ix2 p q)
      = (∑ k : Fin 16384, x0 (ix2 p k) * x1 (ix2 k q)) + x2 (ix2 p q) + x3 (ix2 (0 : Fin 1) q) := by
  unfold k0_pay1
  simp only [shapeCast_self]
  refine (addf_apply _ _ _).trans ?_
  refine congrArg₂ (· + ·) ((addf_apply _ _ _).trans (congrArg (· + x2 (ix2 p q)) (slab_product x0 x1 p q))) ?_
  exact broadcastTo_1b_ab_apply x3 broadcasts_S1x128_S128x128 p q

end Cert.KernelIdeal.Hand

end
-- ==== Proof.KernelHost.lean ====
/- What the host computes before the region, named by the reference's own stages. The kernel's program and the
   reference open with the same operations on the same arguments: the region index wrapped into range, the gathered
   region weights, their product with the vertex features, and that product times each of the two weight matrices.
   So the direct term the region is handed is the reference's direct term, and the lagged features it is handed are
   the reference's lagged features (the change of float format in between is the identity on the extended reals).
   The bias reaches the region as a one-row matrix. -/
import proofs.«103009_j38603166056521_1_alg».proof.Proof.Gen.KernelIdeal.Frame
import proofs.«103009_j38603166056521_1_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.StableHlo
open Idealize.ShloMosaic.ValueIdx

namespace Cert.KernelIdeal.Hand

open Cert.KernelIdeal Cert.KernelIdeal.Gen

variable (m : (ℓ : Loc nD τ sig) → Buf (Elt Ideal) ℓ)

/-- The direct term as the region finds it: the reference's product of the weighted features with the first weight matrix. -/
theorem V_direct (c : Dev nD) :
    (V m c main_v8 : S16384x128.Idx → EReal)
      = Cert.ReferenceIdeal.Read.val_main_v8 (F := Ideal) (m ((c : Thread nD τ).loc main_arg0)) (m ((c : Thread nD τ).loc main_arg2))
          (m ((c : Thread nD τ).loc main_arg3)) (m ((c : Thread nD τ).loc main_arg5)) := by
  dsimp only [Gen.V, Gen.hostOps0]
  after_results
  rfl

/-- The lagged features as the region finds them: the reference's product with the second weight matrix. -/
theorem V_lagged (c : Dev nD) :
    (V m c main_v10 : S16384x128.Idx → EReal)
      = Cert.ReferenceIdeal.Read.val_main_v9 (F := Ideal) (m ((c : Thread nD τ).loc main_arg0)) (m ((c : Thread nD τ).loc main_arg2))
          (m ((c : Thread nD τ).loc main_arg4)) (m ((c : Thread nD τ).loc main_arg5)) := by
  dsimp only [Gen.V, Gen.hostOps0]
  after_results
  rfl

/-- The bias as the region finds it, a one-row matrix: its entry in column `q` is the bias at `q`. -/
theorem V_bias (c : Dev nD) (q : Fin 128) :
    (V m c main_v11 : S1x128.Idx → EReal) (ix2 (0 : Fin 1) q) = (m ((c : Thread nD τ).loc main_arg6) : S128.Idx → EReal) (ix1 q) := by
  have e : (V m c main_v11 : S1x128.Idx → EReal)
      = shapeCast S1x128 (m ((c : Thread nD τ).loc main_arg6) : S128.Idx → EReal) shapeCasts_S128_S1x128 := by
    dsimp only [Gen.V, Gen.hostOps0]
    after_results
    rfl
  rw [e]
  exact shapeCast_a_1a_apply _ _ (0 : Fin 1) q

end Cert.KernelIdeal.Hand

end
-- ==== Proof.KernelFinal.lean ====
/- From the grid's blocks to the whole result array. The grid has 128 points; point `t` is handed rows
   `128 t … 128 t + 127` of the adjacency (all 16384 columns) and of the direct term, the whole lagged-feature matrix and
   the whole one-row bias, and writes back rows `128 t … 128 t + 127` of the result. An entry of a block sits in its
   array at block index times block size plus its own coordinate, so what point `t` writes at `(p, q)` of its block is
   the aggregation's entry at vertex `128 t + p`, feature `q`. The 128 row blocks tile the 16384 rows (vertex `r` lies in
   block `r / 128`), so after the run the result array is the aggregation of the arrays the region found, and those are
   the arguments' adjacency and bias and the reference's own lagged features and direct term. -/
import proofs.«103009_j38603166056521_1_alg».proof.Proof.Gen.KernelIdeal.Value
import proofs.«103009_j38603166056521_1_alg».proof.Proof.Payload
import proofs.«103009_j38603166056521_1_alg».proof.Proof.KernelHost
import proofs.«103009_j38603166056521_1_alg».proof.Proof.AggSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point `t`, decided over the 128 points: the adjacency, the direct term and the result move
    down one row block per point; the lagged features and the bias stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency slab at point `t`: its entry `y` is the adjacency at row `128 t + y₀`, column `y₁`. -/
theorem slab_apply (c : Dev nD) (t : Fin cfg0.N) (y : S128x16384.Idx) (i : S16384x16384.Idx)
    (h0 : (i 0).val = t.val * 128 + (y 0).val) (h1 : (i 1).val = (y 1).val) :
    (iblk m c 0 t : Vec Ideal S128x16384 .f32) y = (V m c main_arg1 : S16384x16384.Idx → EReal) i := by
  obtain ⟨e0, e1, -⟩ := block_indices t
  unfold iblk
  rw [View.read_apply]
  show V m c main_arg1 _ = V m c main_arg1 i
  congr 1
  funext a
  apply Fin.ext
  match a with
  | ⟨0, _⟩ => show win0_0.index t (0 : Fin 2) * 128 + 1 * (y 0).val = (i 0).val; omega
  | ⟨1, _⟩ => show win0_0.index t (1 : Fin 2) * 16384 + 1 * (y 1).val = (i 1).val; omega

/-- The lagged features at every point: the whole matrix. -/
theorem lagged_apply (c : Dev nD) (t : Fin cfg0.N) (y : S16384x128.Idx) :
    (iblk m c 1 t : Vec Ideal S16384x128 .bf16) y = (V m c main_v10 : S16384x128.Idx → EReal) y := by
  obtain ⟨-, -, e0, e1, -⟩ := block_indices t
  unfold iblk
  rw [View.read_apply]
  show V m c main_v10 _ = V m c main_v10 y
  congr 1
  funext a
  apply Fin.ext
  match a with
  | ⟨0, _⟩ => show win0_1.index t (0 : Fin 2) * 16384 + 1 * (y 0).val = (y 0).val; omega
  | ⟨1, _⟩ => show win0_1.index t (1 : Fin 2) * 128 + 1 * (y 1).val = (y 1).val; omega

/-- The direct term's block at point `t`: its entry `y` is the direct term at row `128 t + y₀`, column `y₁`. -/
theorem direct_apply (c : Dev nD) (t : Fin cfg0.N) (y : S128x128.Idx) (i : S16384x128.Idx)
    (h0 : (i 0).val = t.val * 128 + (y 0).val) (h1 : (i 1).val = (y 1).val) :
    (iblk m c 2 t : Vec Ideal S128x128 .f32) y = (V m c main_v8 : S16384x128.Idx → EReal) i := by
  obtain ⟨-, -, -, -, e0, e1, -⟩ := block_indices t
  unfold iblk
  rw [View.read_apply]
  show V m c main_v8 _ = V m c main_v8 i
  congr 1
  funext a
  apply Fin.ext
  match a with
  | ⟨0, _⟩ => show win0_2.index t (0 : Fin 2) * 128 + 1 * (y 0).val = (i 0).val; omega
  | ⟨1, _⟩ => show win0_2.index t (1 : Fin 2) * 128 + 1 * (y 1).val = (i 1).val; omega

/-- The bias at every point: the whole one-row matrix. -/
theorem bias_apply (c : Dev nD) (t : Fin cfg0.N) (y : S1x128.Idx) :
    (iblk m c 3 t : Vec Ideal S1x128 .f32) y = (V m c main_v11 : S1x128.Idx → EReal) y := by
  obtain ⟨-, -, -, -, -, -, e0, e1, -⟩ := block_indices t
  unfold iblk
  rw [View.read_apply]
  show V m c main_v11 _ = V m c main_v11 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- ONE POINT, over plain arrays: if the four blocks the body holds read the arrays `adj`, `lag`, `ra`, `b` at row
    block `T` as above, the stored value at `(p, q)` is the aggregation's entry at vertex `128 T + p`, feature `q`. -/
theorem point_entry (x0 : FVec Ideal S128x16384 .f32) (x1 : FVec Ideal S16384x128 .bf16) (x2 : FVec Ideal S128x128 .f32)
    (x3 : FVec Ideal S1x128 .f32) (adj : S16384x16384.Idx → EReal) (lag ra : S16384x128.Idx → EReal) (b : S1x128.Idx → EReal)
    (T : Nat) (p q : Fin 128) (r : Fin 16384) (hr : r.val = T * 128 + p.val)
    (h0 : ∀ k : Fin 16384, x0 (ix2 p k) = adj (ix2 r k)) (h1 : ∀ k : Fin 16384, x1 (ix2 k q) = lag (ix2 k q))
    (h2 : x2 (ix2 p q) = ra (ix2 r q)) (h3 : x3 (ix2 (0 : Fin 1) q) = b (ix2 (0 : Fin 1) q)) :
    k0_pay1 (F := Ideal) x0 x1 x2 x3 (ix2 p q) = Cert.Agg.entry adj lag ra (fun q => b (ix2 (0 : Fin 1) q)) r q := by
  have hs : (∑ k : Fin 16384, x0 (ix2 p k) * x1 (ix2 k q)) = ∑ k : Fin 16384, adj (ix2 r k) * lag (ix2 k q) :=
    Finset.sum_congr rfl fun k _ => by rw [h0 k, h1 k]
  rw [pay_apply, h2, h3, hs]
  rfl

/-- WHAT POINT `t` WRITES BACK is block `t` of the aggregation of the arrays as the region finds them. -/
theorem flushed_eq (c : Dev nD) (t : Fin cfg0.N) :
    (dats m 0 c).flushed 4 t = ((cfg0.win 4).blk t).view.read (Elt Ideal)
      (Cert.Agg.agg (V m c main_arg1) (V m c main_v10) (V m c main_v8) (fun q => (V m c main_v11 : S1x128.Idx → EReal) (ix2 (0 : Fin 1) q))) := by
  rw [flushed4]
  unfold out0_4
  rw [View.canon_unit_zero zero_offsets]
  simp only [View.ld_unit_zero (S := S128x16384) zero_offsets, View.ld_unit_zero (S := S16384x128) zero_offsets,
    View.ld_unit_zero (S := S128x128) zero_offsets, View.ld_unit_zero (S := S1x128) zero_offsets]
  obtain ⟨-, -, -, -, -, -, -, -, e0, e1⟩ := block_indices t
  have hN : cfg0.N = 128 := N_0
  have ht : t.val < 128 := by have := t.isLt; omega
  funext j
  have hj0 : (j 0).val < 128 := (j 0).isLt
  have hj1 : (j 1).val < 128 := (j 1).isLt
  have hemb0 : ((((cfg0.win 4).blk t).view.emb j) 0).val = t.val * 128 + (j 0).val := by
    show win0_4.index t (0 : Fin 2) * 128 + 1 * (j 0).val = _; omega
  have hemb1 : ((((cfg0.win 4).blk t).view.emb j) 1).val = (j 1).val := by
    show win0_4.index t (1 : Fin 2) * 128 + 1 * (j 1).val = _; omega
  have ej : (cfg0.win 4).xinj (grid0.coords t) j = ix2 (⟨(j 0).val, hj0⟩ : Fin 128) (⟨(j 1).val, hj1⟩ : Fin 128) :=
    funext fun a => Fin.ext (by
      match a with
      | ⟨0, _⟩ => rfl
      | ⟨1, _⟩ => rfl)
  refine Eq.trans (congrArg (k0_pay1 (F := Ideal) (iblk m c 0 t) (iblk m c 1 t) (iblk m c 2 t) (iblk m c 3 t)) ej) ?_
  refine Eq.trans (point_entry (iblk m c 0 t) (iblk m c 1 t) (iblk m c 2 t) (iblk m c 3 t) (V m c main_arg1) (V m c main_v10) (V m c main_v8)
    (V m c main_v11) t.val ⟨(j 0).val, hj0⟩ ⟨(j 1).val, hj1⟩ ⟨t.val * 128 + (j 0).val, by omega⟩ rfl
    (fun k => slab_apply m c t _ _ rfl rfl) (fun k => lagged_apply m c t _) (direct_apply m c t _ _ rfl rfl) (bias_apply m c t _)) ?_
  rw [View.read_apply]
  exact (Cert.Agg.agg_apply _ _ _ _ _ ⟨t.val * 128 + (j 0).val, by omega⟩ ⟨(j 1).val, hj1⟩ hemb0 hemb1).symm

/-- An index of the result array is in point `t`'s block iff each coordinate is in the block's range on its axis. -/
theorem mem_blk (t : Fin cfg0.N) (i : S16384x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v12).slice (win0_4.rect t)).set ↔ _
  rw [View.set_slice_whole, Rect.mem_set_unit]
  exact Iff.rfl

/-- The row blocks tile the array: vertex `r` is in the block of point `r / 128`. -/
theorem cover (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 128 := N_0
  have hlt : (i 0).val / 128 < cfg0.N := by rw [hN]; omega
  obtain ⟨-, -, -, -, -, -, -, -, e0, e1⟩ := block_indices ⟨(i 0).val / 128, hlt⟩
  refine ⟨⟨(i 0).val / 128, hlt⟩, flush0_4 _, ?_⟩
  rw [mem_blk]
  intro a
  match a with
  | ⟨0, _⟩ =>
    show win0_4.index ⟨(i 0).val / 128, hlt⟩ (0 : Fin 2) * 128 ≤ (i 0).val ∧ (i 0).val < win0_4.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, hlt⟩ (1 : Fin 2) * 128 ≤ (i 1).val ∧ (i 1).val < win0_4.index ⟨(i 0).val / 128, hlt⟩ (1 : Fin 2) * 128 + 128
    rw [e1]; omega

/-- The aggregation of the arguments: the adjacency and the bias as launched, the lagged features and the direct term
    the reference's own stages of the arguments. -/
abbrev result (c : Dev nD) : S16384x128.Idx → EReal :=
  Cert.Agg.agg (m ((c : Thread nD τ).loc main_arg1))
    (Cert.ReferenceIdeal.Read.val_main_v9 (F := Ideal) (m ((c : Thread nD τ).loc main_arg0)) (m ((c : Thread nD τ).loc main_arg2))
      (m ((c : Thread nD τ).loc main_arg4)) (m ((c : Thread nD τ).loc main_arg5)))
    (Cert.ReferenceIdeal.Read.val_main_v8 (F := Ideal) (m ((c : Thread nD τ).loc main_arg0)) (m ((c : Thread nD τ).loc main_arg2))
      (m ((c : Thread nD τ).loc main_arg3)) (m ((c : Thread nD τ).loc main_arg5)))
    (fun q => (m ((c : Thread nD τ).loc main_arg6) : S128.Idx → EReal) (ix1 q))

/-- THE RESULT ARRAY after the run is that aggregation. -/
theorem final (c : Dev nD) : (dats m 0 c).arrAt 4 cfg0.N = result m c := by
  rw [(dats m 0 c).arrAt_eq_of_cover 4 _ (fun t _ => flushed_eq m c t) cover]
  unfold result
  rw [V_main_arg1, V_lagged, V_direct]
  congr 1
  funext q
  exact V_bias m c q

/-- The run, read: the result array at the aggregation of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.Hand

end
-- ==== Proof.lean ====
/- A graph convolution with per-region feature weights, in two arrangements. Both programs weight each vertex's
   features by its region's row of a 64-row table, multiply the weighted features by two 128 x 128 matrices — the direct
   term and the lagged features —, contract the 16384 x 16384 adjacency with the lagged features, and add the direct term
   and the bias. The kernel does the adjacency contraction 128 rows at a time with the additions fused, as
   `(adjacency row . lagged column + direct) + bias`; the reference does it in one product and adds
   `(direct + adjacency row . lagged column) + bias`. On the extended reals the narrowing of the kernel's two matrix
   operands is the identity and a sum of products does not depend on how the rows were tiled, so entry by entry the two
   results differ only in the side the direct term is added on, and addition commutes: no finiteness is used.
   Proof/AggSpec.lean states the common function; Proof/RefAgg.lean shows the reference's result is it;
   Proof/Payload.lean, Proof/KernelHost.lean and Proof/KernelFinal.lean show the kernel's result array is it (the body's
   stored value at an entry, the arrays the host hands the region, the row blocks tiling the array);
   Proof/LibDotRead.lean re-indexes a matrix product's contraction. The three frames are the generated runs. -/
import proofs.«103009_j38603166056521_1_alg».proof.Defs
import proofs.«103009_j38603166056521_1_alg».proof.Proof.Gen.Kernel
import proofs.«103009_j38603166056521_1_alg».proof.Proof.Gen.Kernel.Skeleton
import proofs.«103009_j38603166056521_1_alg».proof.Proof.Gen.Kernel.Launch
import proofs.«103009_j38603166056521_1_alg».proof.Proof.Gen.Kernel.Points
import proofs.«103009_j38603166056521_1_alg».proof.Proof.Gen.Kernel.Frame
import proofs.«103009_j38603166056521_1_alg».proof.Proof.Gen.KernelIdeal
import proofs.«103009_j38603166056521_1_alg».proof.Proof.Gen.KernelIdeal.Skeleton
import proofs.«103009_j38603166056521_1_alg».proof.Proof.Gen.KernelIdeal.Launch
import proofs.«103009_j38603166056521_1_alg».proof.Proof.Gen.KernelIdeal.Points
import proofs.«103009_j38603166056521_1_alg».proof.Proof.Gen.KernelIdeal.Frame
import proofs.«103009_j38603166056521_1_alg».proof.Proof.Gen.ReferenceIdeal
import proofs.«103009_j38603166056521_1_alg».proof.Proof.Gen.Pre_finite_inputs
import proofs.«103009_j38603166056521_1_alg».proof.Proof.Gen.KernelIdeal.Value
import proofs.«103009_j38603166056521_1_alg».proof.Proof.Gen.ReferenceIdeal.Run
import proofs.«103009_j38603166056521_1_alg».proof.Proof.Gen.ReferenceIdeal.Read
import proofs.«103009_j38603166056521_1_alg».proof.Proof.RefAgg
import proofs.«103009_j38603166056521_1_alg».proof.Proof.KernelFinal
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten to read the kernel on the extended reals. -/
theorem preserves : Cert.preserves_Kernel_KernelIdeal := trivial

/-- Both results are the aggregation of the same adjacency, lagged features, direct term and bias: the kernel's by its
    row blocks tiling the result, the reference's by reading its last five operations at an entry and commuting one
    addition; the arguments agree, so the two arrays are one. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
